-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S365x128 : Shape := ⟨2, ![365, 128]⟩
abbrev S128 : Shape := ⟨1, ![128]⟩
abbrev S_ : Shape := ⟨0, ![]⟩

class Facts : Prop where
  bcast_S_S365x128 : S_.BroadcastsInDim S365x128 (![] : Fin 0 → Fin S365x128.rank)
  reducesTo_S365x128_S_d0_1 : S365x128.ReducesTo [0, 1] S_
  h_S_ : 0 < S_.numel
  bcast_S_S128 : S_.BroadcastsInDim S128 (![] : Fin 0 → Fin S128.rank)
  reducesTo_S128_S_d0 : S128.ReducesTo [0] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S8192x64 32) (main_arg1 : FVec F S365x128 .f32) (main_arg2 : FVec F S128 .f32) : IVec S_ 1 :=
  let main_v0 : FVec F S365x128 .f32 := Host.absf main_arg1
  let main_cst : FVec F S_ .f32 := constant S_ .f32 0x7F800000#32
  let main_v1 : FVec F S365x128 .f32 := broadcastInDim S365x128 ![] bcast_S_S365x128 main_cst
  let main_v2 : IVec S365x128 1 := cmpf .olt main_v0 main_v1
  let main_c : IVec S_ 1 := constantI S_ 1 1#1
  let main_v3 : IVec S_ 1 := (fun x v => Host.reduce IntOp.andi x v reducesTo_S365x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S8192x64 32 := broadcastInDim S8192x64 ![] bcast_S_S8192x64 main_c_2
  let main_v10 : IVec S8192x64 1 := cmpi .sge main_arg0 main_v9
  let main_c_3 : IVec S_ 1 := constantI S_ 1 1#1
  let main_v11 : IVec S_ 1 := (fun x v => Host.reduce IntOp.andi x v reducesTo_S8192x64_S_d0_1 h_S_) main_v10 main_c_3
  let main_v12 : IVec S_ 1 := andi main_v8 main_v11
  let main_c_4 : IVec S_ 32 := constantI S_ 32 365#32
  let main_v13 : IVec S8192x64 32 := broadcastInDim S8192x64 ![] bcast_S_S8192x64 main_c_4
  let main_v14 : IVec S8192x64 1 := cmpi .slt main_arg0 main_v13
  let main_c_5 : IVec S_ 1 := constantI S_ 1 1#1
  let main_v15 : IVec S_ 1 := (fun x v => Host.reduce IntOp.andi x v reducesTo_S8192x64_S_d0_1 h_S_) main_v14 main_c_5
  fn_part1 (F := F) main_v12 main_v15
-- ==== Kernel.lean ====
abbrev S8192x64 : Shape := ⟨2, ![8192, 64]⟩
abbrev S365x128 : Shape := ⟨2, ![365, 128]⟩
abbrev S128 : Shape := ⟨1, ![128]⟩
abbrev S524288x1 : Shape := ⟨2, ![524288, 1]⟩
abbrev S_ : Shape := ⟨0, ![]⟩
abbrev S384x128 : Shape := ⟨2, ![384, 128]⟩
abbrev S1x128 : Shape := ⟨2, ![1, 128]⟩
abbrev S524288x128 : Shape := ⟨2, ![524288, 128]⟩
abbrev S8192x1 : Shape := ⟨2, ![8192, 1]⟩
abbrev S8192x128 : Shape := ⟨2, ![8192, 128]⟩
abbrev S1x384 : Shape := ⟨2, ![1, 384]⟩
abbrev S8192x384 : Shape := ⟨2, ![8192, 384]⟩
abbrev S8192x64x128 : Shape := ⟨3, ![8192, 64, 128]⟩

abbrev nBuf : Space → Nat
  | .hbm => 16
  | .vmem => 6
  | .smem => 0
  | _ => 0

abbrev bufTy : (tb : Table) → Fin (tcTables nBuf tb) → BufTy
  | .hbm, ⟨0, _⟩ => ⟨S8192x64, .i32⟩
  | .hbm, ⟨1, _⟩ => ⟨S365x128, .f32⟩
  | .hbm, ⟨2, _⟩ => ⟨S128, .f32⟩
  | .hbm, ⟨3, _⟩ => ⟨S524288x1, .i32⟩
  | .hbm, ⟨4, _⟩ => ⟨S_, .i32⟩
  | .hbm, ⟨5, _⟩ => ⟨S_, .f32⟩
  | .hbm, ⟨6, _⟩ => ⟨S384x128, .f32⟩
  | .hbm, ⟨7, _⟩ => ⟨S1x128, .f32⟩
  | .hbm, ⟨8, _⟩ => ⟨S384x128, .f32⟩
  | .hbm, ⟨9, _⟩ => ⟨S384x128, .f32⟩
  | .hbm, ⟨10, _⟩ => ⟨S384x128, .bf16⟩
  | .hbm, ⟨11, _⟩ => ⟨S384x128, .f32⟩
  | .hbm, ⟨12, _⟩ => ⟨S384x128, .f32⟩
  | .hbm, ⟨13, _⟩ => ⟨S384x128, .bf16⟩
  | .hbm, ⟨14, _⟩ => ⟨S524288x128, .f32⟩
  | .hbm, ⟨15, _⟩ => ⟨S8192x64x128, .f32⟩
  | .local _ .vmem, ⟨0, _⟩ => ⟨S8192x1, .i32⟩
  | .local _ .vmem, ⟨1, _⟩ => ⟨S8192x1, .i32⟩
  | .local _ .vmem, ⟨2, _⟩ => ⟨S384x128, .bf16⟩
  | .local _ .vmem, ⟨3, _⟩ => ⟨S384x128, .bf16⟩
  | .local _ .vmem, ⟨4, _⟩ => ⟨S8192x128, .f32⟩
  | .local _ .vmem, ⟨5, _⟩ => ⟨S8192x128, .f32⟩
  | _, _ => ⟨S8192x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x64_S524288x1 : S8192x64.ShapeCasts S524288x1
  pads_S365x128_S384x128_0190_000 : S365x128.Pads (![0, 0] : Fin 2 → Nat) ![19, 0] ![0, 0] S384x128
  h_S_ : 0 < S_.numel
  bcast_S128_S1x128_1 : S128.BroadcastsInDim S1x128 (![1] : Fin 1 → Fin S1x128.rank)
  bcast_S1x128_S384x128_0_1 : S1x128.BroadcastsInDim S384x128 (![0, 1] : Fin 2 → Fin S384x128.rank)
  bitsLt_bf16_f32 : FTy.bits .bf16 < FTy.bits .f32
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S1x384_d1_w32 : S1x384.Iotas .tc 32 [1]
  broadcasts_S8192x1_S8192x384 : S8192x1.Broadcasts S8192x384
  broadcasts_S1x384_S8192x384 : S1x384.Broadcasts S8192x384
  natLt_1_32 : 1 < 32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S8192x128_S8192x128_0_0 : ∀ a, (![0, 0] : Fin 2 → Nat) a + S8192x128.size a ≤ S8192x128.size a
  h_S8192x128 : 0 < S8192x128.numel
  shapeCasts_S524288x128_S8192x64x128 : S524288x128.ShapeCasts S8192x64x128
  dot_S8192x384_S384x128_S8192x128_1_0_0_1_n_n_wf : DotDims.WF S8192x384 S384x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S524288x1.size a
  hwx0_0 : ∀ i : grid0.Coords, EltTy.bits .i32 = 32 ∨ (Rect.block (s := S524288x1) S8192x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .bf16 = 32 ∨ (Rect.block (s := S384x128) S384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S384x128.size a
  hwx0_2 : ∀ i : grid0.Coords, EltTy.bits .bf16 = 32 ∨ (Rect.block (s := S384x128) S384x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S524288x128.size a
  hwx0_3 : ∀ i : grid0.Coords, EltTy.bits .f32 = 32 ∨ (Rect.block (s := S524288x128) S8192x128.size (cc0_transform_3 i) (hinb0_3 i)).WholeWords (EltTy.packing .f32)

variable [Facts₀]

def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf

abbrev win0_0 : Pipeline.Window sig grid0 :=
  Pipeline.Window.ofSpec (Memref.whole main_v0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S365x128 : Shape := ⟨2, ![365, 128]⟩
abbrev S128 : Shape := ⟨1, ![128]⟩
abbrev S_ : Shape := ⟨0, ![]⟩
abbrev S8192x64x1 : Shape := ⟨3, ![8192, 64, 1]⟩
abbrev S1 : Shape := ⟨1, ![1]⟩
abbrev S1x1x1 : Shape := ⟨3, ![1, 1, 1]⟩
abbrev S8192x64x128 : Shape := ⟨3, ![8192, 64, 128]⟩
abbrev S1x1x128 : Shape := ⟨3, ![1, 1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x64, .i32⟩
  | .hbm, ⟨1, _⟩ => ⟨S365x128, .f32⟩
  | .hbm, ⟨2, _⟩ => ⟨S128, .f32⟩
  | .hbm, ⟨3, _⟩ => ⟨S_, .i32⟩
  | .hbm, ⟨4, _⟩ => ⟨S8192x64, .i32⟩
  | .hbm, ⟨5, _⟩ => ⟨S8192x64, .i1⟩
  | .hbm, ⟨6, _⟩ => ⟨S_, .i32⟩
  | .hbm, ⟨7, _⟩ => ⟨S8192x64, .i32⟩
  | .hbm, ⟨8, _⟩ => ⟨S8192x64, .i32⟩
  | .hbm, ⟨9, _⟩ => ⟨S8192x64, .i32⟩
  | .hbm, ⟨10, _⟩ => ⟨S8192x64x1, .i32⟩
  | .hbm, ⟨11, _⟩ => ⟨S1, .i32⟩
  | .hbm, ⟨12, _⟩ => ⟨S_, .i32⟩
  | .hbm, ⟨13, _⟩ => ⟨S8192x64x1, .i32⟩
  | .hbm, ⟨14, _⟩ => ⟨S8192x64x1, .i1⟩
  | .hbm, ⟨15, _⟩ => ⟨S1x1x1, .i32⟩
  | .hbm, ⟨16, _⟩ => ⟨S8192x64x1, .i32⟩
  | .hbm, ⟨17, _⟩ => ⟨S8192x64x1, .i1⟩
  | .hbm, ⟨18, _⟩ => ⟨S8192x64x1, .i1⟩
  | .hbm, ⟨19, _⟩ => ⟨S_, .i1⟩
  | .hbm, ⟨20, _⟩ => ⟨S8192x64, .i1⟩
  | .hbm, ⟨21, _⟩ => ⟨S8192x64x128, .f32⟩
  | .hbm, ⟨22, _⟩ => ⟨S8192x64x128, .i1⟩
  | .hbm, ⟨23, _⟩ => ⟨S_, .f32⟩
  | .hbm, ⟨24, _⟩ => ⟨S8192x64x128, .f32⟩
  | .hbm, ⟨25, _⟩ => ⟨S8192x64x128, .f32⟩
  | .hbm, ⟨26, _⟩ => ⟨S1x1x128, .f32⟩
  | .hbm, ⟨27, _⟩ => ⟨S8192x64x128, .f32⟩
  | .hbm, ⟨28, _⟩ => ⟨S8192x64x128, .f32⟩
  | _, _ => ⟨S8192x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S1_S1x1x1_2 : S1.BroadcastsInDim S1x1x1 (![2] : Fin 1 → Fin S1x1x1.rank)
  bcast_S1x1x1_S8192x64x1_0_1_2 : S1x1x1.BroadcastsInDim S8192x64x1 (![0, 1, 2] : Fin 3 → Fin S8192x64x1.rank)
  reducesTo_S8192x64x1_S8192x64_d2 : S8192x64x1.ReducesTo [2] S8192x64
  h_S_ : 0 < S_.numel
  bcast_S8192x64_S8192x64x128_0_1 : S8192x64.BroadcastsInDim S8192x64x128 (![0, 1] : Fin 2 → Fin S8192x64x128.rank)
  bcast_S_S8192x64x128 : S_.BroadcastsInDim S8192x64x128 (![] : Fin 0 → Fin S8192x64x128.rank)
  bcast_S128_S1x1x128_2 : S128.BroadcastsInDim S1x1x128 (![2] : Fin 1 → Fin S1x1x128.rank)
  bcast_S1x1x128_S8192x64x128_0_1_2 : S1x1x128.BroadcastsInDim S8192x64x128 (![0, 1, 2] : Fin 3 → Fin S8192x64x128.rank)
  gather_S365x128_S8192x64x1_S8192x64x128_2_0_n_n_0_2_1128_wf : GatherDims.WF S365x128 S8192x64x1 S8192x64x128 [2] [0] [] [0] [] 2 ![1, 128]

variable [Facts₀]

def gather_S365x128_S8192x64x1_S8192x64x128_2_0_n_n_0_2_1128 : GatherDims S365x128 S8192x64x1 S8192x64x128 where
  offsetDims := [2]
  collapsedSliceDims := [0]
  operandBatchingDims := []
  startIndicesBatchingDims := []
  startIndexMap := [0]
  indexVectorDim := 2
  sliceSizes := ![1, 128]
  wf := gather_S365x128_S8192x64x1_S8192x64x128_2_0_n_n_0_2_1128_wf

class Facts : Prop extends Facts₀ where

variable [Facts]
-- ==== Proof.Spec.lean ====
/-
  The positional encoding as ONE function of the argument arrays, over the extended reals.

  The arguments are a table of positions `pos : [8192, 64]` of 32-bit integers (day numbers), a weight table
  `W : [365, 128]` with one row per day, and a bias `b : [128]`. The encoding of position (p, q) is row `pos[p, q]` of
  the table with the bias added entry by entry:

      out[p, q, j] = W[pos[p, q], j] + b[j].

  A row number must be below 365; the definition below reads the word unsigned and reduces it modulo 365, which
  is the identity on day numbers (`InRange`) and makes the function total. Both programs are shown to compute this
  function on day numbers: one selects the row by a product with a one-hot row of 384 entries, the other
  gathers it.
-/
import Idealize.ShloMosaic.PureOps.Ideal
import Idealize.ShloMosaic.Lib.ValueIdx

noncomputable section

namespace Cert.PosEnc

open Idealize.ShloMosaic Idealize.ShloMosaic.ValueIdx

/-- The positions: 8192 sequences of 64 day numbers. -/
abbrev SPos : Shape := ⟨2, ![8192, 64]⟩
/-- The weight table: one row of 128 entries per day of the year. -/
abbrev STab : Shape := ⟨2, ![365, 128]⟩
/-- The bias. -/
abbrev SBias : Shape := ⟨1, ![128]⟩
/-- The encodings: one row of 128 entries per position. -/
abbrev SOut : Shape := ⟨3, ![8192, 64, 128]⟩

/-- Every position is a day number: the word, read unsigned, is below 365 (so its signed reading is the same
    number, in [0, 365)). -/
def InRange (pos : IVec SPos 32) : Prop := ∀ (p : Fin 8192) (q : Fin 64), (pos (ix2 p q)).toNat < 365

/-- Every entry of a float array is a real number (neither infinity). -/
def IsReal {s : Shape} (x : FVec Ideal s .f32) : Prop := ∀ i, ∃ r : ℝ, x i = (r : EReal)

/-- The row of the table that position (p, q) names. -/
def day (pos : IVec SPos 32) (p : Fin 8192) (q : Fin 64) : Fin 365 :=
  ⟨(pos (ix2 p q)).toNat % 365, Nat.mod_lt _ (by decide)⟩

/-- On day numbers the row is the word itself. -/
theorem day_val {pos : IVec SPos 32} (h : InRange pos) (p : Fin 8192) (q : Fin 64) :
    (day pos p q).val = (pos (ix2 p q)).toNat := Nat.mod_eq_of_lt (h p q)

/-- The encoding at (p, q, j): entry j of the row position (p, q) names, plus entry j of the bias. -/
def enc (pos : IVec SPos 32) (W : FVec Ideal STab .f32) (b : FVec Ideal SBias .f32)
    (p : Fin 8192) (q : Fin 64) (j : Fin 128) : EReal :=
  W (ix2 (day pos p q) j) + b (ix1 j)

/-- The whole array of encodings. -/
def G (pos : IVec SPos 32) (W : FVec Ideal STab .f32) (b : FVec Ideal SBias .f32) : FVec Ideal SOut .f32 :=
  fun i => enc pos W b ⟨(i 0).val, (i 0).isLt⟩ ⟨(i 1).val, (i 1).isLt⟩ ⟨(i 2).val, (i 2).isLt⟩

theorem G_apply (pos : IVec SPos 32) (W : FVec Ideal STab .f32) (b : FVec Ideal SBias .f32)
    (p : Fin 8192) (q : Fin 64) (j : Fin 128) : G pos W b (ix3 p q j) = enc pos W b p q j := rfl

end Cert.PosEnc

end
-- ==== Proof.PreDecode.lean ====
/-
  The precondition read back as three facts about the arguments.

  The predicate is a conjunction of four "for all entries" tests, each a reduction by `and` (from the bit 1) of an
  entrywise comparison: |W| < +∞, |b| < +∞, pos ≥ 0 and pos < 365, the last two on the words read signed. When the
  conjunction is the bit 1, each test is 1, so each comparison holds at every entry. For a float entry x this says
  max x (-x) < ⊤ in the extended reals, which excludes both infinities (at x = ⊥ the maximum is -⊥ = ⊤) and leaves
  a real number. For a position word w it says 0 ≤ w < 365 signed; a nonnegative signed reading is the unsigned
  reading, so w, read unsigned, is below 365.
-/
import proofs.«402869_j73993696575862_3_alg».proof.Pre_finite_inputs
import proofs.«402869_j73993696575862_3_alg».proof.Proof.Spec
import Idealize.ShloMosaic.Lib.ReduceAll
import Idealize.ShloMosaic.Lib.ValueIdx

namespace Cert.PosEnc

open Idealize.ShloMosaic Idealize.ShloMosaic.ValueIdx

/-- An extended real whose absolute value max x (-x) is strictly below the pattern 0x7F800000 (which denotes +∞)
    is a real number: x = ⊤ gives ⊤ < ⊤, and x = ⊥ gives max ⊥ ⊤ = ⊤ < ⊤, both false. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that tests 0 ≤ w and w < 365 as a signed number is below 365 as an unsigned one: the signed
    reading is either the unsigned one or that minus 2³², and the second is negative. -/
theorem toNat_lt_of_day (w : BitVec 32) (h0 : IntOp.cmpi .sge w 0#32 = 1#1) (h1 : IntOp.cmpi .slt w 365#32 = 1#1) :
    w.toNat < 365 := by
  rw [IntOp.cmpi_sge, show (0#32 : BitVec 32).toInt = 0 from by decide] at h0
  rw [IntOp.cmpi_slt, show (365#32 : BitVec 32).toInt = 365 from by decide] at h1
  have e := BitVec.toInt_eq_toNat_cond w
  have := w.isLt
  split at e <;> omega

/-- The precondition holding (its one bit is 1) says: every position is a day number, and every entry of the table
    and of the bias is a real number. The four conjuncts are split off one by one, each reduction by `and` gives its
    comparison at every entry, and a broadcast constant reads as that constant at every entry by computation. -/
theorem pre_decode [Cert.Pre_finite_inputs.Facts] (pos : IVec SPos 32) (W : FVec Ideal STab .f32) (b : FVec Ideal SBias .f32)
    (h : Cert.Pre_finite_inputs.fn (F := Ideal) pos W b = fun _ => 1#1) :
    InRange pos ∧ IsReal W ∧ IsReal b := by
  -- the scalar shape has exactly one index, so a reduction over all axes has a single result
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  have e1 := Host.reduce_andi_all _ _ _ _ _ h1
  have e2 := Host.reduce_andi_all _ _ _ _ _ h2
  have e3 := Host.reduce_andi_all _ _ _ _ _ h3
  have e4 := Host.reduce_andi_all _ _ _ _ _ h4
  exact ⟨fun p q => toNat_lt_of_day _ (e3 (ix2 p q)) (e4 (ix2 p q)),
    fun i => real_of_abs_lt_inf _ (e1 i), fun i => real_of_abs_lt_inf _ (e2 i)⟩

end Cert.PosEnc
-- ==== Proof.KernelPoint.lean ====
/-
  One entry of what the kernel body stores, over the extended reals.

  At a grid point the body loads a column of 8192 position words, and two tables of 384 rows by 128 entries
  (the weight table padded to 384 rows with the bias added to every row, in a high part and a low part). It
  compares each word with the lane numbers 0 … 383, which gives row r the ONE-HOT row of its word (entry k is
  1 when the word is the number k, else 0), multiplies the one-hot matrix with each table and adds the two
  products. So entry (r, j) of the stored block is

      Σ_k hot(word_r, k) · hi[k, j]  +  Σ_k hot(word_r, k) · lo[k, j],

  and a one-hot row against a table picks the table's row: when the word is a number n < 384, each sum is
  the table's entry (n, j).
-/
import proofs.«402869_j73993696575862_3_alg».proof.Proof.Gen.KernelIdeal.Skeleton
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.PosEnc.Kern

open Idealize.ShloMosaic Idealize.ShloMosaic.ValueIdx Cert.KernelIdeal Cert.KernelIdeal.Gen

/-! ## The one-hot row -/

/-- Entry `k` of the one-hot row of the word `w`: the comparison's bit, widened to a word and converted to
    a float. -/
def hot (w : BitVec 32) (k : Fin 384) : EReal :=
  ((((IntOp.cmpi .eq w (BitVec.ofNat 32 k.val)).setWidth 32).toInt : ℝ) : EReal)

/-- It is 1 at the word's own number and 0 elsewhere. -/
theorem hot_eq (w : BitVec 32) (k : Fin 384) : hot w k = if w = BitVec.ofNat 32 k.val then 1 else 0 := by
  unfold hot
  by_cases h : w = BitVec.ofNat 32 k.val
  · rw [if_pos h, StableHlo.Predicate.cmpi_eq_iff.2 h]
    simp
  · rw [if_neg h, eq_zero_of_ne_one (mt StableHlo.Predicate.cmpi_eq_iff.1 h)]
    simp

/-- A word below 384 is the number of exactly one lane. -/
theorem eq_ofNat_iff (w : BitVec 32) (hw : w.toNat < 384) (k : Fin 384) :
    w = BitVec.ofNat 32 k.val ↔ k = ⟨w.toNat, hw⟩ := by
  constructor
  · intro h
    apply Fin.ext
    have := congrArg BitVec.toNat h
    rw [BitVec.toNat_ofNat] at this
    have hk := k.isLt
    show k.val = w.toNat
    omega
  · intro h
    subst h
    show w = BitVec.ofNat 32 w.toNat
    exact (BitVec.ofNat_toNat (x := w) (m := 32)).symm ▸ (BitVec.setWidth_eq w).symm

/-- A one-hot row against a column picks the column's entry at the word's number. -/
theorem sum_hot_mul (w : BitVec 32) (hw : w.toNat < 384) (f : Fin 384 → EReal) :
    ∑ k : Fin 384, hot w k * f k = f ⟨w.toNat, hw⟩ := by
  rw [Finset.sum_eq_single (⟨w.toNat, hw⟩ : Fin 384)]
  · rw [hot_eq, if_pos ((eq_ofNat_iff w hw _).2 rfl), one_mul]
  · intro k _ hk
    rw [hot_eq, if_neg (fun h => hk ((eq_ofNat_iff w hw k).1 h)), zero_mul]
  · intro h
    exact absurd (Finset.mem_univ _) h

/-! ## The product of a matrix of 384 columns with a table of 384 rows, at one entry

The body's matrix product contracts the one axis of 384 lanes: at entry (r, j) it is the sum over the lanes k of
the left operand at (r, k) times the table at (k, j). The four statements below say which coordinate of each
operand each axis of the result index and the contraction index gives. -/

theorem lhs_row (i : S8192x128.Idx) (q : dot_S8192x384_S384x128_S8192x128_1_0_0_1_n_n.contr.Idx) :
    (dot_S8192x384_S384x128_S8192x128_1_0_0_1_n_n.lhsIdx i q 0).val = (i 0).val := by
  unfold DotDims.lhsIdx
  rw [dif_neg (show ¬(0 : Fin S8192x384.rank) ∈ dot_S8192x384_S384x128_S8192x128_1_0_0_1_n_n.lhsBatch by decide),
    dif_pos (show (0 : Fin S8192x384.rank) ∈ dot_S8192x384_S384x128_S8192x128_1_0_0_1_n_n.lhsNonContracting by decide)]
  rfl

theorem lhs_lane (i : S8192x128.Idx) (q : dot_S8192x384_S384x128_S8192x128_1_0_0_1_n_n.contr.Idx) :
    (dot_S8192x384_S384x128_S8192x128_1_0_0_1_n_n.lhsIdx i q 1).val = (q ⟨0, by decide⟩).val :=
  dot_S8192x384_S384x128_S8192x128_1_0_0_1_n_n.lhsIdx_val_of_single rfl i q

theorem rhs_lane (i : S8192x128.Idx) (q : dot_S8192x384_S384x128_S8192x128_1_0_0_1_n_n.contr.Idx) :
    (dot_S8192x384_S384x128_S8192x128_1_0_0_1_n_n.rhsIdx i q 0).val = (q ⟨0, by decide⟩).val :=
  dot_S8192x384_S384x128_S8192x128_1_0_0_1_n_n.rhsIdx_val_of_single rfl i q

theorem rhs_col (i : S8192x128.Idx) (q : dot_S8192x384_S384x128_S8192x128_1_0_0_1_n_n.contr.Idx) :
    (dot_S8192x384_S384x128_S8192x128_1_0_0_1_n_n.rhsIdx i q 1).val = (i 1).val := by
  unfold DotDims.rhsIdx
  rw [dif_neg (show ¬(1 : Fin S384x128.rank) ∈ dot_S8192x384_S384x128_S8192x128_1_0_0_1_n_n.rhsBatch by decide),
    dif_pos (show (1 : Fin S384x128.rank) ∈ dot_S8192x384_S384x128_S8192x128_1_0_0_1_n_n.rhsNonContracting by decide)]
  rfl

/-- Into a zero accumulator the product at (r, j) is the plain sum over the 384 lanes. -/
theorem matmul_at (a : FVec Ideal S8192x384 .bf16) (w : FVec Ideal S384x128 .bf16) (r : Fin 8192) (j : Fin 128) :
    matmul dot_S8192x384_S384x128_S8192x128_1_0_0_1_n_n none a w (constant S8192x128 .f32 0x00000000#32) (ix2 r j)
      = ∑ k : Fin 384, a (ix2 r k) * w (ix2 k j) := by
  show FloatOps.matmul dot_S8192x384_S384x128_S8192x128_1_0_0_1_n_n none a w (constant S8192x128 .f32 0x00000000#32) (ix2 r j) = _
  rw [Ideal.matmul_constant_zero_apply, ← Equiv.sum_comp (contrEquiv1 dot_S8192x384_S384x128_S8192x128_1_0_0_1_n_n 384 rfl rfl).symm]
  refine Finset.sum_congr rfl fun k _ => ?_
  have hk := contrEquiv1_symm_val dot_S8192x384_S384x128_S8192x128_1_0_0_1_n_n 384 rfl rfl k
  have el : dot_S8192x384_S384x128_S8192x128_1_0_0_1_n_n.lhsIdx (ix2 r j) ((contrEquiv1 dot_S8192x384_S384x128_S8192x128_1_0_0_1_n_n 384 rfl rfl).symm k) = ix2 r k :=
    funext fun a => Fin.ext (by
      match a with
      | ⟨0, _⟩ => exact lhs_row _ _
      | ⟨1, _⟩ => exact (lhs_lane _ _).trans hk)
  have er : dot_S8192x384_S384x128_S8192x128_1_0_0_1_n_n.rhsIdx (ix2 r j) ((contrEquiv1 dot_S8192x384_S384x128_S8192x128_1_0_0_1_n_n 384 rfl rfl).symm k) = ix2 k j :=
    funext fun a => Fin.ext (by
      match a with
      | ⟨0, _⟩ => exact (rhs_lane _ _).trans hk
      | ⟨1, _⟩ => exact rhs_col _ _)
  rw [el, er]

/-! ## The stored block at one entry -/

/-- Entry (r, j) of what the body stores: the one-hot row of row r's word against column j of the high
    table, plus the same against the low table. -/
theorem pay_apply (x0 : Vec Ideal S8192x1 .i32) (x1 x2 : Vec Ideal S384x128 .bf16) (r : Fin 8192) (j : Fin 128) :
    k0_pay1 (F := Ideal) x0 x1 x2 (ix2 r j)
      = (∑ k : Fin 384, hot (x0 (ix2 r 0)) k * x1 (ix2 k j)) + ∑ k : Fin 384, hot (x0 (ix2 r 0)) k * x2 (ix2 k j) := by
  unfold k0_pay1
  simp only [shapeCast_self]
  rw [addf_apply, matmul_at, matmul_at]
  have hot_at : ∀ k : Fin 384,
      (truncf .bf16 (sitofp .f32 (extui 32 (cmpi .eq (broadcastTo S8192x384 x0 broadcasts_S8192x1_S8192x384)
        (broadcastTo S8192x384 (iota .tc S1x384 32 [1] iota_S1x384_d1_w32) broadcasts_S1x384_S8192x384)) natLt_1_32))
        bitsLt_bf16_f32 : FVec Ideal S8192x384 .bf16) (ix2 r k) = hot (x0 (ix2 r 0)) k := by
    intro k
    rw [truncf_apply, sitofp_apply, extui_apply]
    show ((((IntOp.cmpi .eq (broadcastTo S8192x384 x0 broadcasts_S8192x1_S8192x384 (ix2 r k))
      (broadcastTo S8192x384 (iota .tc S1x384 32 [1] iota_S1x384_d1_w32) broadcasts_S1x384_S8192x384 (ix2 r k))).setWidth 32).toInt : ℝ) : EReal) = _
    rw [broadcastTo_apply x0 _ (ix2 r k) (ix2 r 0) (fun a => by
        match a with
        | ⟨0, _⟩ => rfl
        | ⟨1, _⟩ => rfl),
      broadcastTo_apply (iota .tc S1x384 32 [1] iota_S1x384_d1_w32) _ (ix2 r k) (ix2 (0 : Fin 1) k) (fun a => by
        match a with
        | ⟨0, _⟩ => rfl
        | ⟨1, _⟩ => rfl),
      iota_single_apply]
    rfl
  simp only [hot_at]

end Cert.PosEnc.Kern

end
-- ==== Proof.KernelHost.lean ====
/-
  What the kernel's three input arrays hold when the region starts, as terms of the program's arguments.

  Before the region the host lines lay the positions out as one column of 524288 words (a reshape of the
  [8192, 64] table, row after row), pad the weight table from 365 to 384 rows with zero rows and add the bias to
  every row — call the result `tab` —, and split it into a high part (the table itself, after a change of
  float format) and a low part (the table minus its high part, after the same change). Over the extended reals
  a change of format is the identity, so the high part is `tab` and the low part is `tab - tab` entry by entry.
  Inside the first 365 rows `tab` at (k, j) is W[k, j] + b[j].
-/
import proofs.«402869_j73993696575862_3_alg».proof.Proof.Gen.KernelIdeal.Frame
import Idealize.ShloMosaic.Lib.StableHlo.Run
import Idealize.ShloMosaic.Lib.ValueIdx
import Idealize.ShloMosaic.Lib.Pipeline.Value
import Idealize.ShloMosaic.Lib.KernelVsHost

noncomputable section

namespace Cert.PosEnc.Kern

open Idealize.ShloMosaic Idealize.ShloMosaic.TcCoe Idealize.SL.Sem Idealize.ShloMosaic.StableHlo
open Idealize.ShloMosaic.ValueIdx Cert.KernelIdeal Cert.KernelIdeal.Gen

section AnyInstance
variable {F : FTy → Type} [FloatOps F]

/-- The weight table padded with 19 zero rows, the bias added to every row. -/
def tab (W : FVec F S365x128 .f32) (b : FVec F S128 .f32) : FVec F S384x128 .f32 :=
  addf (pad S384x128 ![0, 0] ![19, 0] ![0, 0] W (sitofp .f32 (constantI S_ 32 0#32) : FVec F S_ .f32)
      pads_S365x128_S384x128_0190_000 h_S_)
    (broadcastInDim S384x128 ![0, 1] bcast_S1x128_S384x128_0_1 (broadcastInDim S1x128 ![1] bcast_S128_S1x128_1 b))

variable (m : (ℓ : Loc nD τ sig) → Buf (Elt F) ℓ)

/-- The positions as the region finds them: the argument laid out as one column. -/
theorem V_v0 (c : Dev nD) : (V m c main_v0 : S524288x1.Idx → BitVec 32)
    = shapeCast S524288x1 (m ((c : Thread nD τ).loc main_arg0)) shapeCasts_S8192x64_S524288x1 := by
  dsimp only [V, V0]
  simp only [hostOps0, hostOps0_1, hostOps0_2, List.flatten_cons, List.flatten_nil, List.append_nil, List.cons_append,
    List.nil_append]
  after_results
  rfl

/-- The high table as the region finds it. -/
theorem V_v5 (c : Dev nD) : (V m c main_v5 : S384x128.Idx → F .bf16)
    = truncf .bf16 (tab (m ((c : Thread nD τ).loc main_arg1)) (m ((c : Thread nD τ).loc main_arg2))) bitsLt_bf16_f32 := by
  dsimp only [V, V0]
  simp only [hostOps0, hostOps0_1, hostOps0_2, List.flatten_cons, List.flatten_nil, List.append_nil, List.cons_append,
    List.nil_append]
  after_results
  rfl

/-- The low table as the region finds it. -/
theorem V_v8 (c : Dev nD) : (V m c main_v8 : S384x128.Idx → F .bf16)
    = truncf .bf16 (subf (tab (m ((c : Thread nD τ).loc main_arg1)) (m ((c : Thread nD τ).loc main_arg2)))
        (extf .f32 (truncf .bf16 (tab (m ((c : Thread nD τ).loc main_arg1)) (m ((c : Thread nD τ).loc main_arg2)))
          bitsLt_bf16_f32) bitsLt_bf16_f32)) bitsLt_bf16_f32 := by
  dsimp only [V, V0]
  simp only [hostOps0, hostOps0_1, hostOps0_2, List.flatten_cons, List.flatten_nil, List.append_nil, List.cons_append,
    List.nil_append]
  after_results
  rfl

end AnyInstance

/-- Inside the weight table's own rows the padded table is the table's entry plus the bias's. -/
theorem tab_apply (W : FVec Ideal S365x128 .f32) (b : FVec Ideal S128 .f32) (k : Fin 365) (j : Fin 128) :
    tab (F := Ideal) W b (ix2 (⟨k.val, by omega⟩ : Fin 384) j) = W (ix2 k j) + b (ix1 j) := by
  unfold tab
  rw [addf_apply,
    pad_apply_of_inside _ _ _ W _ _ _ (ix2 (⟨k.val, by omega⟩ : Fin 384) j) (ix2 k j) (fun a => by
      match a with
      | ⟨0, _⟩ => simp
      | ⟨1, _⟩ => simp),
    broadcastInDim_apply _ _ _ (ix2 (⟨k.val, by omega⟩ : Fin 384) j) (ix2 (0 : Fin 1) j) (fun a => by
      match a with
      | ⟨0, _⟩ => rfl
      | ⟨1, _⟩ => rfl),
    broadcastInDim_apply _ _ _ (ix2 (0 : Fin 1) j) (ix1 j) (fun a => by
      match a with
      | ⟨0, _⟩ => rfl)]

end Cert.PosEnc.Kern

end
-- ==== Proof.KernelEntry.lean ====
/-
  One entry of the stored block is the encoding.

  Row r of a block holds a position's word n, a day number (below 365, hence below the 384 lanes). The one-hot
  row of n against the high table picks its row n, which is W[n, ·] + b; against the low table it picks
  (W[n, ·] + b) - (W[n, ·] + b). With real entries that difference is 0 — this is where finiteness of the
  table and the bias is used: on the extended reals x - x is not 0 at an infinity. So the entry is
  W[n, j] + b[j] + 0.
-/
import proofs.«402869_j73993696575862_3_alg».proof.Proof.Spec
import proofs.«402869_j73993696575862_3_alg».proof.Proof.KernelPoint
import proofs.«402869_j73993696575862_3_alg».proof.Proof.KernelHost

noncomputable section

namespace Cert.PosEnc.Kern

open Idealize.ShloMosaic Idealize.ShloMosaic.ValueIdx Cert.KernelIdeal Cert.KernelIdeal.Gen

/-- Entry (r, j) of the stored block when the block's row r holds position (p, q)'s word and the two tables are the
    high and low parts of the padded table. -/
theorem entry (x0 : Vec Ideal S8192x1 .i32) (x1 x2 : Vec Ideal S384x128 .bf16)
    (pos : IVec SPos 32) (W : FVec Ideal STab .f32) (b : FVec Ideal SBias .f32)
    (hr : InRange pos) (hW : IsReal W) (hb : IsReal b)
    (h1 : x1 = truncf .bf16 (tab (F := Ideal) W b) bitsLt_bf16_f32)
    (h2 : x2 = truncf .bf16 (subf (tab (F := Ideal) W b)
      (extf .f32 (truncf .bf16 (tab (F := Ideal) W b) bitsLt_bf16_f32) bitsLt_bf16_f32)) bitsLt_bf16_f32)
    (p : Fin 8192) (q : Fin 64) (r : Fin 8192) (j : Fin 128) (h0 : x0 (ix2 r 0) = pos (ix2 p q)) :
    k0_pay1 (F := Ideal) x0 x1 x2 (ix2 r j) = enc pos W b p q j := by
  have hw : (pos (ix2 p q)).toNat < 384 := lt_trans (hr p q) (by decide)
  have hrow : (⟨(pos (ix2 p q)).toNat, hw⟩ : Fin 384) = ⟨(day pos p q).val, by have := (day pos p q).isLt; omega⟩ :=
    Fin.ext (day_val hr p q).symm
  rw [pay_apply, h0, sum_hot_mul _ hw, sum_hot_mul _ hw, h1, h2]
  simp only [truncf_apply, extf_apply, subf_apply]
  rw [hrow, tab_apply]
  obtain ⟨u, hu⟩ := hW (ix2 (day pos p q) j)
  obtain ⟨v, hv⟩ := hb (ix1 j)
  unfold enc
  rw [hu, hv, ← EReal.coe_add, ← EReal.coe_sub, sub_self, EReal.coe_zero, add_zero]

end Cert.PosEnc.Kern

end
-- ==== Proof.KernelValue.lean ====
/-
  The kernel's result array as one function of the arguments.

  The grid has 64 points; point t works on rows 8192 t … 8192 t + 8191 of the flat column of 524288 positions
  and writes the same rows of the flat [524288, 128] output; both tables are one block, the same at every
  point. Flat row n is position (n / 64, n % 64) of the [8192, 64] argument, because the column is the
  argument's rows laid end to end; so row r of point t's block is the encoding of position
  ((8192 t + r) / 64, (8192 t + r) % 64). The 64 blocks tile the output, hence the array after the region is
  `flat`: flat row n holds the encoding of position (n / 64, n % 64). The one host line after the region views
  the flat rows as [8192, 64] again, which gives the encodings `G`.
-/
import proofs.«402869_j73993696575862_3_alg».proof.Proof.KernelEntry
import Idealize.ShloMosaic.Lib.Pipeline.Value

noncomputable section

namespace Cert.PosEnc.Kern

open Idealize.ShloMosaic Idealize.ShloMosaic.TcCoe Idealize.SL.Sem Idealize.ShloMosaic.StableHlo
open Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 64 grid points: the positions' and the output's block number is the point's,
    the tables' is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arguments on core c. -/
abbrev pos (c : Dev nD) : IVec SPos 32 := m ((c : Thread nD τ).loc main_arg0)
abbrev wts (c : Dev nD) : FVec Ideal STab .f32 := m ((c : Thread nD τ).loc main_arg1)
abbrev bias (c : Dev nD) : FVec Ideal SBias .f32 := m ((c : Thread nD τ).loc main_arg2)

/-- The flat output: row n holds the encoding of position (n / 64, n % 64). -/
def flat (pos : IVec SPos 32) (W : FVec Ideal STab .f32) (b : FVec Ideal SBias .f32) : S524288x128.Idx → EReal :=
  fun i => enc pos W b ⟨(i 0).val / 64, by have := idx2_lt0 i; omega⟩ ⟨(i 0).val % 64, Nat.mod_lt _ (by decide)⟩
    ⟨(i 1).val, idx2_lt1 i⟩

theorem flat_apply (pos : IVec SPos 32) (W : FVec Ideal STab .f32) (b : FVec Ideal SBias .f32) (i : S524288x128.Idx)
    (p : Fin 8192) (q : Fin 64) (j : Fin 128) (hp : p.val = (i 0).val / 64) (hq : q.val = (i 0).val % 64)
    (hj : j.val = (i 1).val) : flat pos W b i = enc pos W b p q j := by
  unfold flat
  congr 1
  · exact Fin.ext hp.symm
  · exact Fin.ext hq.symm
  · exact Fin.ext hj.symm

/-- One entry of point t's stored block against the flat output, for any block contents that are what the point
    finds: row r of the positions' block is position (p, q) whenever 64 p + q = 8192 t + r. -/
theorem block_entry (x0 : Vec Ideal S8192x1 .i32) (x1 x2 : Vec Ideal S384x128 .bf16)
    (pos : IVec SPos 32) (W : FVec Ideal STab .f32) (b : FVec Ideal SBias .f32)
    (hr : InRange pos) (hW : IsReal W) (hb : IsReal b)
    (h1 : x1 = truncf .bf16 (tab (F := Ideal) W b) bitsLt_bf16_f32)
    (h2 : x2 = truncf .bf16 (subf (tab (F := Ideal) W b)
      (extf .f32 (truncf .bf16 (tab (F := Ideal) W b) bitsLt_bf16_f32) bitsLt_bf16_f32)) bitsLt_bf16_f32)
    (t : ℕ) (ht : t < 64)
    (h0 : ∀ (r : Fin 8192) (p : Fin 8192) (q : Fin 64), p.val * 64 + q.val = 8192 * t + r.val → x0 (ix2 r 0) = pos (ix2 p q))
    (y : S8192x128.Idx) (i : S524288x128.Idx) (hi0 : (i 0).val = t * 8192 + (y 0).val) (hi1 : (i 1).val = (y 1).val) :
    k0_pay1 (F := Ideal) x0 x1 x2 y = flat pos W b i := by
  obtain ⟨r, j, rfl⟩ : ∃ (r : Fin 8192) (j : Fin 128), y = ix2 r j := ⟨y 0, y 1, eq_ix2 y⟩
  have hr' := r.isLt
  rw [flat_apply pos W b i ⟨(t * 8192 + r.val) / 64, by omega⟩ ⟨(t * 8192 + r.val) % 64, Nat.mod_lt _ (by decide)⟩ j
    (by rw [hi0]) (by rw [hi0]) hi1.symm]
  exact entry x0 x1 x2 pos W b hr hW hb h1 h2 _ _ r j (h0 r _ _ (by
    show (t * 8192 + r.val) / 64 * 64 + (t * 8192 + r.val) % 64 = 8192 * t + r.val
    omega))

/-! ## The blocks a point finds -/

/-- Row r of the positions' block at point t is position (p, q) of the argument whenever 64 p + q = 8192 t + r:
    the block is rows 8192 t … of the flat column, and the column is the argument's rows laid end to end. -/
theorem blk_pos (c : Dev nD) (t : Fin cfg0.N) (r : Fin 8192) (p : Fin 8192) (q : Fin 64)
    (h : p.val * 64 + q.val = 8192 * t.val + r.val) :
    (iblk m c 0 t : Vec Ideal S8192x1 .i32) (ix2 r 0) = pos m c (ix2 p q) := by
  obtain ⟨e0, e1, -⟩ := idx_facts t
  unfold iblk
  rw [View.read_apply]
  show (V m c main_v0 : S524288x1.Idx → BitVec 32) _ = _
  rw [V_v0]
  refine shapeCast_apply _ _ _ (ix2 p q) ?_
  rw [Shape.rowMajor_val_two, Shape.rowMajor_val_two]
  show p.val * 64 + q.val = (win0_0.index t (0 : Fin 2) * 8192 + 1 * r.val) * 1 + (win0_0.index t (1 : Fin 2) * 1 + 1 * 0)
  rw [e0, e1]
  omega

/-- The high table's block is the whole table, at every point. -/
theorem blk_hi (c : Dev nD) (t : Fin cfg0.N) :
    (iblk m c 1 t : Vec Ideal S384x128 .bf16) = (V m c main_v5 : S384x128.Idx → Ideal .bf16) := by
  obtain ⟨-, -, e2, e3, -⟩ := idx_facts t
  funext x
  unfold iblk
  rw [View.read_apply]
  show (V m c main_v5 : S384x128.Idx → Ideal .bf16) _ = (V m c main_v5 : S384x128.Idx → Ideal .bf16) x
  congr 1
  funext a
  apply Fin.ext
  match a with
  | ⟨0, _⟩ => show win0_1.index t (0 : Fin 2) * 384 + 1 * (x 0).val = (x 0).val; rw [e2]; omega
  | ⟨1, _⟩ => show win0_1.index t (1 : Fin 2) * 128 + 1 * (x 1).val = (x 1).val; rw [e3]; omega

/-- The low table's block is the whole table, at every point. -/
theorem blk_lo (c : Dev nD) (t : Fin cfg0.N) :
    (iblk m c 2 t : Vec Ideal S384x128 .bf16) = (V m c main_v8 : S384x128.Idx → Ideal .bf16) := by
  obtain ⟨-, -, -, -, e4, e5, -⟩ := idx_facts t
  funext x
  unfold iblk
  rw [View.read_apply]
  show (V m c main_v8 : S384x128.Idx → Ideal .bf16) _ = (V m c main_v8 : S384x128.Idx → Ideal .bf16) x
  congr 1
  funext a
  apply Fin.ext
  match a with
  | ⟨0, _⟩ => show win0_2.index t (0 : Fin 2) * 384 + 1 * (x 0).val = (x 0).val; rw [e4]; omega
  | ⟨1, _⟩ => show win0_2.index t (1 : Fin 2) * 128 + 1 * (x 1).val = (x 1).val; rw [e5]; omega

/-! ## What a point writes back, the tiling, and the array after the region -/

/-- What point t writes back is block t of the flat output. -/
theorem flushed_eq (c : Dev nD) (hr : InRange (pos m c)) (hW : IsReal (wts m c)) (hb : IsReal (bias m c)) (t : Fin cfg0.N) :
    (dats m 0 c).flushed 3 t = ((cfg0.win 3).blk t).view.read (Elt Ideal) (flat (pos m c) (wts m c) (bias m c)) := by
  show (cfg0.win 3).cut (grid0.coords t) ((dats m 0 c).after 3 t) = _
  rw [after0_3]
  unfold out0_3
  rw [View.canon_unit_zero hz]
  simp only [View.ld_unit_zero (S := S8192x1) hz, View.ld_unit_zero (S := S384x128) hz]
  obtain ⟨-, -, -, -, -, -, e6, e7⟩ := idx_facts t
  have hN : cfg0.N = 64 := N_0
  funext y
  show k0_pay1 (F := Ideal) (iblk m c 0 t) (iblk m c 1 t) (iblk m c 2 t) y
    = flat (pos m c) (wts m c) (bias m c) (((cfg0.win 3).blk t).view.emb y)
  exact block_entry (iblk m c 0 t) (iblk m c 1 t) (iblk m c 2 t) (pos m c) (wts m c) (bias m c) hr hW hb
    ((blk_hi m c t).trans (V_v5 m c)) ((blk_lo m c t).trans (V_v8 m c)) t.val (by have := t.isLt; omega)
    (fun r p q h => blk_pos m c t r p q h) y _
    (by show win0_3.index t (0 : Fin 2) * 8192 + 1 * (y 0).val = _; rw [e6]; omega)
    (by show win0_3.index t (1 : Fin 2) * 128 + 1 * (y 1).val = _; rw [e7]; omega)

/-- Every flat row lies in the block of the point numbered by the row's quotient by 8192. -/
theorem cover (i : S524288x128.Idx) :
    ∃ t : Fin cfg0.N, (cfg0.win 3).flush t = true ∧ i ∈ ((cfg0.win 3).blk t).view.set := by
  have h0 := idx2_lt0 i
  have h1 := idx2_lt1 i
  have hN : cfg0.N = 64 := N_0
  have ht : (i 0).val / 8192 < cfg0.N := by omega
  obtain ⟨-, -, -, -, -, -, e6, e7⟩ := idx_facts ⟨(i 0).val / 8192, ht⟩
  refine ⟨⟨(i 0).val / 8192, ht⟩, flush0_3 _, ?_⟩
  show i ∈ ((View.whole main_v9).slice (win0_3.rect ⟨(i 0).val / 8192, ht⟩)).set
  rw [View.set_slice_whole, Rect.mem_set_unit]
  intro a
  match a with
  | ⟨0, _⟩ =>
    show win0_3.index _ (0 : Fin 2) * 8192 ≤ (i 0).val ∧ (i 0).val < win0_3.index _ (0 : Fin 2) * 8192 + 8192
    rw [e6]
    show (i 0).val / 8192 * 8192 ≤ (i 0).val ∧ (i 0).val < (i 0).val / 8192 * 8192 + 8192
    omega
  | ⟨1, _⟩ =>
    show win0_3.index _ (1 : Fin 2) * 128 ≤ (i 1).val ∧ (i 1).val < win0_3.index _ (1 : Fin 2) * 128 + 128
    rw [e7]
    omega

/-- The output array after the region is the flat output. -/
theorem final (c : Dev nD) (hr : InRange (pos m c)) (hW : IsReal (wts m c)) (hb : IsReal (bias m c)) :
    (dats m 0 c).arrAt 3 cfg0.N = flat (pos m c) (wts m c) (bias m c) :=
  (dats m 0 c).arrAt_eq_of_cover 3 (flat (pos m c) (wts m c) (bias m c)) (fun t _ => flushed_eq m c hr hW hb t) cover

/-! ## The host line after the region, and the run -/

/-- The flat rows viewed as [8192, 64] are the encodings. -/
theorem shapeCast_flat (pos : IVec SPos 32) (W : FVec Ideal STab .f32) (b : FVec Ideal SBias .f32) :
    shapeCast S8192x64x128 (flat pos W b) shapeCasts_S524288x128_S8192x64x128 = G pos W b := by
  funext i
  obtain ⟨p, q, j, rfl⟩ : ∃ (p : Fin 8192) (q : Fin 64) (j : Fin 128), i = ix3 p q j := ⟨i 0, i 1, i 2, eq_ix3 i⟩
  have hp := p.isLt
  have hq := q.isLt
  rw [G_apply]
  refine (shapeCast_apply _ _ (ix3 p q j) (ix2 (⟨p.val * 64 + q.val, by omega⟩ : Fin 524288) j) (by
    rw [Shape.rowMajor_val_two, Shape.rowMajor_val_three]; rfl)).trans ?_
  exact flat_apply pos W b _ p q j (by show p.val = (p.val * 64 + q.val) / 64; omega)
    (by show q.val = (p.val * 64 + q.val) % 64; omega) rfl

/-- What the program's result buffer holds after the line that follows the region. -/
theorem tail (c : Dev nD) (hr : InRange (pos m c)) (hW : IsReal (wts m c)) (hb : IsReal (bias m c)) :
    Pipeline.afterTail₀ cfgs (dats m) 0 (V0 m) [hostOps1] c main_v10 = G (pos m c) (wts m c) (bias m c) := by
  unfold Pipeline.afterTail₀
  show StableHlo.after hostOps1 _ (Proc.devRef .tc main_v10) = _
  after_results
  refine Eq.trans ?_ (shapeCast_flat (pos m c) (wts m c) (bias m c))
  show shapeCast S8192x64x128 (Pipeline.withArrays (cfgs 0).spec c (V0 m c) (fun w => (dats m 0 c).arrAt w (cfgs 0).N)
      (Proc.devRef .tc main_v9)) shapeCasts_S524288x128_S8192x64x128
    = shapeCast S8192x64x128 (flat (pos m c) (wts m c) (bias m c)) shapeCasts_S524288x128_S8192x64x128
  congr 1
  exact (Pipeline.withArrays_arr spec0 launch0.win.arr_inj c _ _ 3).trans (final m c hr hW hb)

/-- The kernel's program, run from arguments that are day numbers and real tables: every weakly fair execution
    ends with the result buffer at the encodings and the arguments as they were. -/
theorem run (hpre : ∀ c : Dev nD, InRange (pos m c) ∧ IsReal (wts m c) ∧ IsReal (bias m c)) :
    θ_run defs (onTc (τ := τ) (main (F := Ideal))) ⟨m, fun _ => 0, ρ⟩ fun r => ∀ c : Dev nD,
      r.2.mem ((c.tc : Thread nD τ).loc main_v10) = G (pos m c) (wts m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans
        (tail m c (hpre c).1 (hpre c).2.1 (hpre c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PosEnc.Kern

end
-- ==== Proof.RefRun.lean ====
/-
  The reference program as a straight line of host operations, and what its run leaves in the result buffer.

  The program looks a table row up per position the way `jnp.take` does in fill mode: a negative position is
  moved up by the table's height, a position outside the table's rows selects a row of NaNs, any other
  position selects its row (the row lookup itself clamps its start into the table); the bias, stretched along
  the two position axes, is then added. Here the two nested calls are unfolded at their call sites, so the
  program is one list of twenty-six operations, and the contents of the result buffer after the run is the
  composition `out` of those operations applied to the three argument arrays.
-/
import proofs.«402869_j73993696575862_3_alg».proof.Proof.Gen.ReferenceIdeal
import Idealize.ShloMosaic.Lib.StableHlo.Run

noncomputable section

namespace Cert.PosEnc.Ref

open Cert.ReferenceIdeal Cert.ReferenceIdeal.Gen Idealize.ShloMosaic Idealize.ShloMosaic.TcCoe Idealize.SL.Sem Idealize.ShloMosaic.StableHlo

variable {F : FTy → Type} [FloatOps F]

/-- The program's twenty-six operations in order: the row lookup's twenty-three (the wrap of negative
    positions, whose select is the inner call's one operation, the range test, the gather, the select against
    the NaN fill), then the bias's two broadcasts and the sum. -/
abbrev ops : List (HloOp τ sig (Elt F)) :=
  [ TRef.nullary main_call0.c (constantI S_ 32 0#32),
    TRef.unary main_call0.c main_call0.v0 (broadcastInDim S8192x64 ![] bcast_S_S8192x64),
    TRef.binary (.of main_arg0) main_call0.v0 main_call0.v1 (cmpi .slt),
    TRef.nullary main_call0.c_0 (constantI S_ 32 365#32),
    TRef.unary main_call0.c_0 main_call0.v2 (broadcastInDim S8192x64 ![] bcast_S_S8192x64),
    TRef.binary (.of main_arg0) main_call0.v2 main_call0.v3 addi,
    TRef.ternary main_call0.v1 main_call0.v3 (.of main_arg0) main_call0.call0.v0 select,
    TRef.unary main_call0.call0.v0 main_call0.v5 (broadcastInDim S8192x64x1 ![0, 1] bcast_S8192x64_S8192x64x1_0_1),
    TRef.nullary main_call0.c_1 (constantI S1 32 364#32),
    TRef.nullary main_call0.c_2 (constantI S_ 32 0#32),
    TRef.unary main_call0.c_2 main_call0.v6 (broadcastInDim S8192x64x1 ![] bcast_S_S8192x64x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x64x1 ![0, 1, 2] bcast_S1x1x1_S8192x64x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x64x1_S8192x64_d2 h_S_),
    TRef.binary (.of main_arg1) main_call0.v5 main_call0.v13 (fun x i => Host.gather gather_S365x128_S8192x64x1_S8192x64x128_2_0_n_n_0_2_1128 x i),
    TRef.unary main_call0.v12 main_call0.v14 (broadcastInDim S8192x64x128 ![0, 1] bcast_S8192x64_S8192x64x128_0_1),
    TRef.nullary main_call0.cst (constant S_ .f32 0x7FC00000#32),
    TRef.unary main_call0.cst main_call0.v15 (broadcastInDim S8192x64x128 ![] bcast_S_S8192x64x128),
    TRef.ternary main_call0.v14 main_call0.v13 main_call0.v15 main_call0.v16 select,
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S8192x64x128 ![0, 1, 2] bcast_S1x1x128_S8192x64x128_0_1_2 : (⟨S1x1x128, .f32⟩ : BufTy).Contents (Elt F) → (⟨S8192x64x128, .f32⟩ : BufTy).Contents (Elt F)),
    binary main_v0 main_v2 main_v3 (addf : (⟨S8192x64x128, .f32⟩ : BufTy).Contents (Elt F) → (⟨S8192x64x128, .f32⟩ : BufTy).Contents (Elt F) → (⟨S8192x64x128, .f32⟩ : BufTy).Contents (Elt F)) ]

set_option maxRecDepth 1024 in
/-- The program is that straight line: with the two callees' definitions unfolded at their calls, both sides are
    one chain of steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-! ## The composed value

The operations' composition, in the program's own stages. -/

/-- The positions with each negative one moved up by the table's height, 365. -/
def wrap (pos : IVec S8192x64 32) : IVec S8192x64 32 :=
  select (cmpi .slt pos (broadcastInDim S8192x64 ![] bcast_S_S8192x64 (constantI S_ 32 0#32)))
    (addi pos (broadcastInDim S8192x64 ![] bcast_S_S8192x64 (constantI S_ 32 365#32))) pos

/-- The wrapped positions as the row lookup's start indices: one index vector of length one per position. -/
def idx (pos : IVec S8192x64 32) : IVec S8192x64x1 32 :=
  broadcastInDim S8192x64x1 ![0, 1] bcast_S8192x64_S8192x64x1_0_1 (wrap pos)

/-- The range test: per position, the conjunction over its index vector's one entry of `0 ≤ entry ≤ 364`, both
    comparisons signed. -/
def inb (pos : IVec S8192x64 32) : IVec S8192x64 1 :=
  Host.reduce IntOp.andi
    (andi (cmpi .sge (idx pos) (broadcastInDim S8192x64x1 ![] bcast_S_S8192x64x1 (constantI S_ 32 0#32)))
      (cmpi .sle (idx pos)
        (broadcastInDim S8192x64x1 ![0, 1, 2] bcast_S1x1x1_S8192x64x1_0_1_2
          (broadcastInDim S1x1x1 ![2] bcast_S1_S1x1x1_2 (constantI S1 32 364#32)))))
    (constantI S_ 1 1#1) reducesTo_S8192x64x1_S8192x64_d2 h_S_

/-- The row lookup: per position the table's row at the start index. -/
def rows (pos : IVec S8192x64 32) (W : FVec F S365x128 .f32) : FVec F S8192x64x128 .f32 :=
  Host.gather gather_S365x128_S8192x64x1_S8192x64x128_2_0_n_n_0_2_1128 W (idx pos)

/-- The looked-up rows where the range test passes, a row of NaNs where it fails. -/
def taken (pos : IVec S8192x64 32) (W : FVec F S365x128 .f32) : FVec F S8192x64x128 .f32 :=
  select (broadcastInDim S8192x64x128 ![0, 1] bcast_S8192x64_S8192x64x128_0_1 (inb pos)) (rows pos W)
    (broadcastInDim S8192x64x128 ![] bcast_S_S8192x64x128 (constant S_ .f32 0x7FC00000#32))

/-- The bias stretched along the two position axes. -/
def bias (b : FVec F S128 .f32) : FVec F S8192x64x128 .f32 :=
  broadcastInDim S8192x64x128 ![0, 1, 2] bcast_S1x1x128_S8192x64x128_0_1_2
    (broadcastInDim S1x1x128 ![2] bcast_S128_S1x1x128_2 b)

/-- What the program computes from the three arguments' contents. -/
def out (pos : IVec S8192x64 32) (W : FVec F S365x128 .f32) (b : FVec F S128 .f32) : FVec F S8192x64x128 .f32 :=
  addf (taken pos W) (bias b)

attribute [local irreducible] Host.reduce Host.gather in
set_option maxRecDepth 8192 in
/-- The fold of the operations at the result buffer is `out` of the arguments' contents: each operation's result
    is read at its own buffer and passed over at every other, all by computation (the reduction and the row
    lookup kept folded meanwhile: the equation never looks inside them). -/
theorem after_out (V : Valuation τ sig (Elt F)) :
    after ops V (main_v3 : DevRef τ sig)
      = out (V (main_arg0 : DevRef τ sig)) (V (main_arg1 : DevRef τ sig)) (V (main_arg2 : DevRef τ sig)) := by
  after_results
  simp only [TRef.toBuf, TRef.ofBuf, cast_eq]
  rfl

theorem after_arg0 (V : Valuation τ sig (Elt F)) :
    after ops V (main_arg0 : DevRef τ sig) = V (main_arg0 : DevRef τ sig) := by
  simp only [after_cons, after_nil]
  rfl

theorem after_arg1 (V : Valuation τ sig (Elt F)) :
    after ops V (main_arg1 : DevRef τ sig) = V (main_arg1 : DevRef τ sig) := by
  simp only [after_cons, after_nil]
  rfl

theorem after_arg2 (V : Valuation τ sig (Elt F)) :
    after ops V (main_arg2 : DevRef τ sig) = V (main_arg2 : DevRef τ sig) := by
  simp only [after_cons, after_nil]
  rfl

/-- On the device, for any float values, from any memory with zero counters: every weakly fair execution of
    the program terminates with the result buffer at `out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v3).trans (after_out _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.PosEnc.Ref

end
-- ==== Proof.LibGatherRows.lean ====
/-
  A row lookup read at an index.

  What `x[idx]` of a table `x : [N, K]` at an integer array `idx : [R, C]` lowers to is a `stablehlo.gather` of
  the table at the start indices `[R, C, 1]` (one index vector of length one per position) with offset axis 2,
  collapsed axis 0, start index map `[0]`, index vector axis 2 and slices `[1, K]`: result element `(p, q, j)`
  is column `j` of the row whose number is the start index `idx[p, q, 0]` read as a signed integer and clamped
  into `[0, N − 1]`.
-/
import Idealize.ShloMosaic.Lib.ValueIdx

noncomputable section

namespace Cert.PosEnc.GatherRows

open Idealize.ShloMosaic Idealize.ShloMosaic.ValueIdx

variable {α : Type}

/-- Those dimension numbers for a table `[N, K]`, start indices `[R, C, 1]` and result `[R, C, K]`; their
    conditions `wf` are decided on a program's literal shapes. -/
abbrev rowsDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE ROW LOOKUP READ AT `(p, q, j)`: the table at column `j` of the row the start index `idx[p, q, 0]` names,
    read signed and clamped into `[0, N − 1]`. On the row axis the operand coordinate is the clamped start alone
    (the axis is collapsed, so it has no offset, and there are no batching axes); on the column axis the start
    is `0` (the start index map does not name it) and the offset is the result's coordinate on its one offset
    axis. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (p : Fin R) (q : Fin C) (j : Fin K) :
    Host.gather (rowsDims N K R C wf) x idx (ix3 p q j)
      = x (ix2 ⟨min (idx (ix3 p q (0 : Fin 1))).toInt.toNat (N - 1), by omega⟩ j) := by
  unfold Host.gather
  congr 1
  funext a
  refine Fin.ext ?_
  match a with
  | ⟨0, _⟩ =>
    show (rowsDims N K R C wf).start (ix3 p q j) idx 0 + (rowsDims N K R C wf).batchCoord (ix3 p q j) 0
        + (rowsDims N K R C wf).offCoord (ix3 p q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R C wf).startIndexMap from List.mem_singleton.mpr rfl)]
    have hsi : (rowsDims N K R C wf).siIdx (ix3 p q j) ⟨List.idxOf (0 : Fin 2) (rowsDims N K R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N K R C wf).start (ix3 p q j) idx 1 + (rowsDims N K R C wf).batchCoord (ix3 p q j) 1
        + (rowsDims N K R C wf).offCoord (ix3 p q j) 1 = j.val
    have hk : (1 : Fin 2) ∈ (rowsDims N K R C wf).sKept := by
      rw [GatherDims.mem_sKept]; exact ⟨(by decide : (1 : Fin 2) ∉ [(0 : Fin 2)]), List.not_mem_nil⟩
    rw [GatherDims.batchCoord_eq_zero _ _ _ List.not_mem_nil]
    unfold GatherDims.start GatherDims.offCoord
    rw [dif_neg (show (1 : Fin 2) ∉ (rowsDims N K R C wf).startIndexMap from (by decide : (1 : Fin 2) ∉ [(0 : Fin 2)])), dif_pos hk]
    simp only [Nat.add_zero, Nat.zero_add]
    rfl

end Cert.PosEnc.GatherRows

end
-- ==== Proof.RefValue.lean ====
/-
  The reference's value on day numbers: the encodings.

  The reference looks a row up per position the way a take in fill mode does: a negative position is moved up by
  365, a position that is then still outside [0, 364] gets a row of not-a-number patterns, and the row lookup
  itself clamps its start into the table. On day numbers none of this acts: a word below 365 read unsigned is the
  same number read signed, so it is not negative (no wrap), it passes both comparisons of the range test (no
  fill), and the clamp min(n, 364) leaves it alone. The looked-up entry is W[pos[p, q], j], and the bias,
  stretched along the two position axes, adds b[j].
-/
import proofs.«402869_j73993696575862_3_alg».proof.Proof.RefRun
import proofs.«402869_j73993696575862_3_alg».proof.Proof.LibGatherRows
import proofs.«402869_j73993696575862_3_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.PosEnc.Ref

open Cert.ReferenceIdeal Cert.ReferenceIdeal.Gen Idealize.ShloMosaic Idealize.ShloMosaic.ValueIdx Cert.PosEnc

/-! ## Words that are day numbers -/

/-- A word below 365 read unsigned is the same number read signed. -/
theorem toInt_of_day {w : BitVec 32} (h : w.toNat < 365) : w.toInt = w.toNat := by
  have e := BitVec.toInt_eq_toNat_cond w
  split at e <;> omega

/-- It is not negative: the wrap's test fails. -/
theorem slt_zero_of_day {w : BitVec 32} (h : w.toNat < 365) : IntOp.cmpi .slt w 0#32 = 0#1 := by
  refine eq_zero_of_ne_one fun e => ?_
  have := IntOp.cmpi_slt.1 e
  rw [toInt_of_day h, show (0#32 : BitVec 32).toInt = 0 from by decide] at this
  omega

/-- It passes the range test's two comparisons. -/
theorem sge_zero_of_day {w : BitVec 32} (h : w.toNat < 365) : IntOp.cmpi .sge w 0#32 = 1#1 :=
  IntOp.cmpi_sge.2 (by rw [toInt_of_day h, show (0#32 : BitVec 32).toInt = 0 from by decide]; omega)

theorem sle_last_of_day {w : BitVec 32} (h : w.toNat < 365) : IntOp.cmpi .sle w 364#32 = 1#1 :=
  IntOp.cmpi_sle.2 (by rw [toInt_of_day h, show (364#32 : BitVec 32).toInt = 364 from by decide]; omega)

/-! ## The stages at an index, on day numbers -/

/-- No position is wrapped. -/
theorem wrap_apply (pos : IVec SPos 32) (h : InRange pos) (p : Fin 8192) (q : Fin 64) :
    wrap pos (ix2 p q) = pos (ix2 p q) := by
  unfold wrap
  rw [select_apply]
  show Scalar.select (IntOp.cmpi .slt (pos (ix2 p q)) 0#32) _ _ = _
  rw [slt_zero_of_day (h p q), select_zero]

/-- A position's start index is the position. -/
theorem idx_apply (pos : IVec SPos 32) (h : InRange pos) (p : Fin 8192) (q : Fin 64) (z : Fin 1) :
    idx pos (ix3 p q z) = pos (ix2 p q) := by
  unfold idx
  rw [broadcastInDim_apply _ _ _ (ix3 p q z) (ix2 p q) (fun a => by
    match a with
    | ⟨0, _⟩ => rfl
    | ⟨1, _⟩ => rfl)]
  exact wrap_apply pos h p q

/-- A conjunction of ones, taken from one, is one. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..)]
    exact ih fun n hn => h n (List.mem_cons_of_mem _ hn)

/-- Every position passes the range test. -/
theorem inb_apply (pos : IVec SPos 32) (h : InRange pos) (p : Fin 8192) (q : Fin 64) : inb pos (ix2 p q) = 1#1 := by
  unfold inb
  rw [Host.reduce_eq_foldl]
  refine foldl_andi_one _ _ fun i _ => ?_
  obtain ⟨p', q', z, rfl⟩ : ∃ (p' : Fin 8192) (q' : Fin 64) (z : Fin 1), i = ix3 p' q' z := ⟨i 0, i 1, i 2, eq_ix3 i⟩
  show IntOp.andi (IntOp.cmpi .sge (idx pos (ix3 p' q' z)) 0#32) (IntOp.cmpi .sle (idx pos (ix3 p' q' z)) 364#32) = 1#1
  rw [idx_apply pos h, sge_zero_of_day (h p' q'), sle_last_of_day (h p' q')]
  rfl

/-- The row lookup reads the row the position names. -/
theorem rows_apply (pos : IVec SPos 32) (W : FVec Ideal STab .f32) (h : InRange pos) (p : Fin 8192) (q : Fin 64) (j : Fin 128) :
    rows (F := Ideal) pos W (ix3 p q j) = W (ix2 (day pos p q) j) := by
  unfold rows
  refine (GatherRows.gather_rows_apply (N := 365) (K := 128) (R := 8192) (C := 64) (by decide)
    gather_S365x128_S8192x64x1_S8192x64x128_2_0_n_n_0_2_1128_wf W (idx pos) p q j).trans ?_
  congr 2
  apply Fin.ext
  show min (idx pos (ix3 p q 0)).toInt.toNat (365 - 1) = (day pos p q).val
  rw [idx_apply pos h, toInt_of_day (h p q), day_val h]
  have := h p q
  omega

/-- The looked-up row is kept: nothing is filled. -/
theorem taken_apply (pos : IVec SPos 32) (W : FVec Ideal STab .f32) (h : InRange pos) (p : Fin 8192) (q : Fin 64) (j : Fin 128) :
    taken (F := Ideal) pos W (ix3 p q j) = W (ix2 (day pos p q) j) := by
  unfold taken
  rw [select_apply, broadcastInDim_apply _ _ (inb pos) (ix3 p q j) (ix2 p q) (fun a => by
    match a with
    | ⟨0, _⟩ => rfl
    | ⟨1, _⟩ => rfl), inb_apply pos h, select_one]
  exact rows_apply pos W h p q j

/-- The stretched bias at (p, q, j) is the bias's entry j. -/
theorem bias_apply (b : FVec Ideal SBias .f32) (p : Fin 8192) (q : Fin 64) (j : Fin 128) :
    bias (F := Ideal) b (ix3 p q j) = b (ix1 j) := by
  unfold bias
  rw [broadcastInDim_apply _ _ _ (ix3 p q j) (ix3 (0 : Fin 1) (0 : Fin 1) j) (fun a => by
      match a with
      | ⟨0, _⟩ => rfl
      | ⟨1, _⟩ => rfl
      | ⟨2, _⟩ => rfl),
    broadcastInDim_apply _ _ _ (ix3 (0 : Fin 1) (0 : Fin 1) j) (ix1 j) (fun a => by
      match a with
      | ⟨0, _⟩ => rfl)]

/-- On day numbers the reference computes the encodings. -/
theorem out_eq (pos : IVec Cert.PosEnc.SPos 32) (W : FVec Ideal Cert.PosEnc.STab .f32) (b : FVec Ideal Cert.PosEnc.SBias .f32)
    (h : Cert.PosEnc.InRange pos) : out (F := Ideal) pos W b = Cert.PosEnc.G pos W b := by
  funext i
  obtain ⟨p, q, j, rfl⟩ : ∃ (p : Fin 8192) (q : Fin 64) (j : Fin 128), i = ix3 p q j := ⟨i 0, i 1, i 2, eq_ix3 i⟩
  rw [G_apply]
  unfold out enc
  rw [addf_apply, taken_apply pos W h, bias_apply]

end Cert.PosEnc.Ref

end
-- ==== Proof.lean ====
/-
  A positional encoder two ways, equal over the extended reals on day numbers.

  Arguments: positions `pos : [8192, 64]` (32-bit integers), a weight table `W : [365, 128]`, a bias `b : [128]`.
  The result is `out[p, q, j] = W[pos[p, q], j] + b[j]` (Proof/Spec.lean, `G`).

  The kernel pads the table to 384 rows, adds the bias to every row, splits the sum into a high and a low part
  (over the extended reals: the sum itself, and the sum minus itself), and for each of 64 blocks of 8192 positions
  multiplies the one-hot rows of the positions with both parts and adds the two products. A one-hot row against
  a table picks the table's row, so an entry is (W[n, j] + b[j]) + ((W[n, j] + b[j]) - (W[n, j] + b[j])), which
  is W[n, j] + b[j] when the table and the bias are real numbers (Proof/KernelPoint.lean, KernelHost.lean,
  KernelEntry.lean, KernelValue.lean). The reference gathers row `pos[p, q]` and adds the bias; its gather wraps a
  negative position by 365 and fills a row that is still out of range with a not-a-number pattern, neither of which
  happens on day numbers (Proof/RefRun.lean, RefValue.lean).

  The precondition says that the table and the bias are finite and every position is in [0, 365)
  (Proof/PreDecode.lean). Outside that range the two programs differ: at position -1 the reference reads row 364
  and the kernel's one-hot row is zero.
-/
import proofs.«402869_j73993696575862_3_alg».proof.Defs
import proofs.«402869_j73993696575862_3_alg».proof.Proof.Gen.Kernel
import proofs.«402869_j73993696575862_3_alg».proof.Proof.Gen.Kernel.Skeleton
import proofs.«402869_j73993696575862_3_alg».proof.Proof.Gen.Kernel.Launch
import proofs.«402869_j73993696575862_3_alg».proof.Proof.Gen.Kernel.Points
import proofs.«402869_j73993696575862_3_alg».proof.Proof.Gen.Kernel.Frame
import proofs.«402869_j73993696575862_3_alg».proof.Proof.Gen.KernelIdeal
import proofs.«402869_j73993696575862_3_alg».proof.Proof.Gen.KernelIdeal.Skeleton
import proofs.«402869_j73993696575862_3_alg».proof.Proof.Gen.KernelIdeal.Launch
import proofs.«402869_j73993696575862_3_alg».proof.Proof.Gen.KernelIdeal.Points
import proofs.«402869_j73993696575862_3_alg».proof.Proof.Gen.KernelIdeal.Frame
import proofs.«402869_j73993696575862_3_alg».proof.Proof.Gen.ReferenceIdeal
import proofs.«402869_j73993696575862_3_alg».proof.Proof.Gen.Pre_finite_inputs
import proofs.«402869_j73993696575862_3_alg».proof.Proof.PreDecode
import proofs.«402869_j73993696575862_3_alg».proof.Proof.KernelValue
import proofs.«402869_j73993696575862_3_alg».proof.Proof.RefValue
import Idealize.ShloMosaic.Adequacy
import Idealize.ShloMosaic.Init

noncomputable section

namespace Cert.Proof

open Idealize.ShloMosaic Idealize.SL.Sem Cert.PosEnc

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.PosEnc.Ref.run (F := Ideal) m ρ)

/-- Both programs end at the encodings `G` of the kernel's arguments: the kernel by its run under the decoded
    precondition, the reference by its run and its value on day numbers, the arguments agreeing. -/
theorem algebraic : Cert.algebraic_KernelIdeal_ReferenceIdeal := by
  intro m ρ m' ρ' hpre hagree
  have hdec : ∀ c : Dev Cert.KernelIdeal.nD, InRange (Kern.pos m c) ∧ IsReal (Kern.wts m c) ∧ IsReal (Kern.bias m c) :=
    fun c => pre_decode _ _ _ (hpre c)
  refine ⟨fun c => G (Kern.pos m c) (Kern.wts m c) (Kern.bias m c), Kern.run m ρ hdec, ?_⟩
  refine (θ_run Cert.ReferenceIdeal.defs _ _).mono (fun _ h c => ⟨(h c).1.trans ?_, (h c).2⟩)
    (Cert.PosEnc.Ref.run (F := Ideal) m' ρ')
  rw [(hagree c).1, (hagree c).2.1, (hagree c).2.2]
  exact Cert.PosEnc.Ref.out_eq _ _ _ (hdec c).1

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
